-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x32x32x256 : Shape := ⟨5, ![16, 12, 32, 32, 256]⟩
abbrev S12x256 : Shape := ⟨2, ![12, 256]⟩
abbrev S_ : Shape := ⟨0, ![]⟩

class Facts : Prop where
  bcast_S_S16x12x32x32x256 : S_.BroadcastsInDim S16x12x32x32x256 (![] : Fin 0 → Fin S16x12x32x32x256.rank)
  reducesTo_S16x12x32x32x256_S_d0_1_2_3_4 : S16x12x32x32x256.ReducesTo [0, 1, 2, 3, 4] S_
  h_S_ : 0 < S_.numel
  bcast_S_S12x256 : S_.BroadcastsInDim S12x256 (![] : Fin 0 → Fin S12x256.rank)
  reducesTo_S12x256_S_d0_1 : S12x256.ReducesTo [0, 1] S_

variable [Facts]

def fn {F : FTy → Type} [FloatOps F] (main_arg0 : FVec F S16x12x32x32x256 .f32) (main_arg1 : FVec F S12x256 .f32) : IVec S_ 1 :=
  let main_v0 : FVec F S16x12x32x32x256 .f32 := Host.absf main_arg0
  let main_cst : FVec F S_ .f32 := constant S_ .f32 0x7F800000#32
  let main_v1 : FVec F S16x12x32x32x256 .f32 := broadcastInDim S16x12x32x32x256 ![] bcast_S_S16x12x32x32x256 main_cst
  let main_v2 : IVec S16x12x32x32x256 1 := cmpf .olt main_v0 main_v1
  let main_c : IVec S_ 1 := constantI S_ 1 1#1
  let main_v3 : IVec S_ 1 := (fun x v => Host.reduce IntOp.andi x v reducesTo_S16x12x32x32x256_S_d0_1_2_3_4 h_S_) main_v2 main_c
  let main_v4 : FVec F S12x256 .f32 := Host.absf main_arg1
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  main_v8
-- ==== Kernel.lean ====
abbrev S16x12x32x32x256 : Shape := ⟨5, ![16, 12, 32, 32, 256]⟩
abbrev S12x256 : Shape := ⟨2, ![12, 256]⟩
abbrev S1x12x8x32x256 : Shape := ⟨5, ![1, 12, 8, 32, 256]⟩
abbrev S12x8x32x256 : Shape := ⟨4, ![12, 8, 32, 256]⟩
abbrev S12x1x1x256 : Shape := ⟨4, ![12, 1, 1, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x12x32x32x256, .f32⟩
  | .hbm, ⟨1, _⟩ => ⟨S12x256, .f32⟩
  | .hbm, ⟨2, _⟩ => ⟨S16x12x32x32x256, .f32⟩
  | .local _ .vmem, ⟨0, _⟩ => ⟨S1x12x8x32x256, .f32⟩
  | .local _ .vmem, ⟨1, _⟩ => ⟨S1x12x8x32x256, .f32⟩
  | .local _ .vmem, ⟨2, _⟩ => ⟨S12x256, .f32⟩
  | .local _ .vmem, ⟨3, _⟩ => ⟨S1x12x8x32x256, .f32⟩
  | .local _ .vmem, ⟨4, _⟩ => ⟨S1x12x8x32x256, .f32⟩
  | _, _ => ⟨S16x12x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x12x8x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x12x8x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x12x8x32x256_S1x12x8x32x256_0_0_0_0_0 : ∀ a, (![0, 0, 0, 0, 0] : Fin 5 → Nat) a + S1x12x8x32x256.size a ≤ S1x12x8x32x256.size a
  h_S1x12x8x32x256 : 0 < S1x12x8x32x256.numel
  shapeCasts_S1x12x8x32x256_S12x8x32x256 : S1x12x8x32x256.ShapeCasts S12x8x32x256
  inb_S12x256_S12x256_0_0 : ∀ a, (![0, 0] : Fin 2 → Nat) a + S12x256.size a ≤ S12x256.size a
  h_S12x256 : 0 < S12x256.numel
  shapeCasts_S12x256_S12x1x1x256 : S12x256.ShapeCasts S12x1x1x256
  broadcasts_S12x1x1x256_S12x8x32x256 : S12x1x1x256.Broadcasts S12x8x32x256
  shapeCasts_S12x8x32x256_S1x12x8x32x256 : S12x8x32x256.ShapeCasts S1x12x8x32x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x8x32x256.size a ≤ S16x12x32x32x256.size a
  hwx0_0 : ∀ i : grid0.Coords, EltTy.bits .f32 = 32 ∨ (Rect.block (s := S16x12x32x32x256) S1x12x8x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x256.size a ≤ S12x256.size a
  hwx0_1 : ∀ i : grid0.Coords, EltTy.bits .f32 = 32 ∨ (Rect.block (s := S12x256) S12x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x8x32x256.size a ≤ S16x12x32x32x256.size a
  hwx0_2 : ∀ i : grid0.Coords, EltTy.bits .f32 = 32 ∨ (Rect.block (s := S16x12x32x32x256) S1x12x8x32x256.size (cc0_transform_2 i) (hinb0_2 i)).WholeWords (EltTy.packing .f32)

variable [Facts₀]

abbrev win0_0 : Pipeline.Window sig grid0 :=
  Pipeline.Window.ofSpec (Memref.whole main_arg0) S1x12x8x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12x8x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x12x32x32x256 : Shape := ⟨5, ![16, 12, 32, 32, 256]⟩
abbrev S12x256 : Shape := ⟨2, ![12, 256]⟩
abbrev S_ : Shape := ⟨0, ![]⟩
abbrev S12x1x1x256 : Shape := ⟨4, ![12, 1, 1, 256]⟩
abbrev S1x12x1x1x256 : Shape := ⟨5, ![1, 12, 1, 1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16x12x32x32x256, .f32⟩
  | .hbm, ⟨1, _⟩ => ⟨S12x256, .f32⟩
  | .hbm, ⟨2, _⟩ => ⟨S_, .f32⟩
  | .hbm, ⟨3, _⟩ => ⟨S16x12x32x32x256, .f32⟩
  | .hbm, ⟨4, _⟩ => ⟨S16x12x32x32x256, .f32⟩
  | .hbm, ⟨5, _⟩ => ⟨S12x1x1x256, .f32⟩
  | .hbm, ⟨6, _⟩ => ⟨S1x12x1x1x256, .f32⟩
  | .hbm, ⟨7, _⟩ => ⟨S16x12x32x32x256, .f32⟩
  | .hbm, ⟨8, _⟩ => ⟨S16x12x32x32x256, .f32⟩
  | _, _ => ⟨S16x12x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S16x12x32x32x256 : S_.BroadcastsInDim S16x12x32x32x256 (![] : Fin 0 → Fin S16x12x32x32x256.rank)
  bcast_S12x256_S12x1x1x256_0_3 : S12x256.BroadcastsInDim S12x1x1x256 (![0, 3] : Fin 2 → Fin S12x1x1x256.rank)
  bcast_S12x1x1x256_S1x12x1x1x256_1_2_3_4 : S12x1x1x256.BroadcastsInDim S1x12x1x1x256 (![1, 2, 3, 4] : Fin 4 → Fin S1x12x1x1x256.rank)
  bcast_S1x12x1x1x256_S16x12x32x32x256_0_1_2_3_4 : S1x12x1x1x256.BroadcastsInDim S16x12x32x32x256 (![0, 1, 2, 3, 4] : Fin 5 → Fin S16x12x32x32x256.rank)

variable [Facts₀]

class Facts : Prop extends Facts₀ where

variable [Facts]
-- ==== Proof.ScaleAddTable.lean ====
/-
  The function both programs compute.

  The array `x` is indexed by (b, t, h, w, s) over [16, 12, 32, 32, 256] and the table `pe` by (t, s) over
  [12, 256]. The result at (b, t, h, w, s) is

      x[b, t, h, w, s] · 16 + pe[t, s] :

  every entry of `x` is scaled by 16 and the table entry of its own second and last coordinate is added, so the
  table is constant along the first, third and fourth axes. The factor 16 is carried as the float word
  0x41800000; both programs hold that same word, so its value is never needed. Nothing here uses a law of
  arithmetic: the two programs apply the same two operations, in the same order, to the same operands.
-/
import Idealize.ShloMosaic.PureOps

noncomputable section

namespace Cert.ScaleAddTable

open Idealize.ShloMosaic

/-- The array's shape, [16, 12, 32, 32, 256]. -/
abbrev SArr : Shape := ⟨5, ![16, 12, 32, 32, 256]⟩
/-- The table's shape, [12, 256]. -/
abbrev STab : Shape := ⟨2, ![12, 256]⟩

/-- The table entry an array index reads: row its second coordinate, column its last. -/
abbrev tableIdx (i : SArr.Idx) : STab.Idx := fun a => match a with
  | ⟨0, _⟩ => ⟨(i 1).val, (i 1).isLt⟩
  | ⟨1, _⟩ => ⟨(i 4).val, (i 4).isLt⟩

variable {F : FTy → Type} [FloatOps F]

/-- `x · 16 + pe` with the table broadcast along the first, third and fourth axes, entry by entry. -/
def scaledPlusTable (x : SArr.Idx → Elt F .f32) (pe : STab.Idx → Elt F .f32) : SArr.Idx → Elt F .f32 :=
  fun i => FloatOps.addf (FloatOps.mulf (x i) (Scalar.ofBits .f32 0x41800000#32)) (pe (tableIdx i))

theorem scaledPlusTable_apply (x : SArr.Idx → Elt F .f32) (pe : STab.Idx → Elt F .f32) (i : SArr.Idx) :
    scaledPlusTable x pe i = FloatOps.addf (FloatOps.mulf (x i) (Scalar.ofBits .f32 0x41800000#32)) (pe (tableIdx i)) := rfl

end Cert.ScaleAddTable

end
-- ==== Proof.ReferenceValue.lean ====
/-
  The reference's result is `scaledPlusTable` of its two arguments.

  The reference multiplies `x` by the constant 16 broadcast to the whole shape, and adds the table after three
  broadcasts: [12, 256] to [12, 1, 1, 256] (row to axis 0, column to axis 3), then to [1, 12, 1, 1, 256] (a new
  leading axis), then to [16, 12, 32, 32, 256] (the three unit axes stretched). Read at an index (b, t, h, w, s), the
  first broadcast back reads (0, t, 0, 0, s), the second (t, 0, 0, s), the third (t, s): the composition of the three
  index maps is `tableIdx`. Each stage read at an index is a generated lemma of the reference's run; what is
  added here is that composition.
-/
import proofs.«156377_j41188736369188_1_alg».proof.Proof.Gen.ReferenceIdeal.Read
import proofs.«156377_j41188736369188_1_alg».proof.Proof.ScaleAddTable

noncomputable section

namespace Cert.ReferenceValue

open Cert.ReferenceIdeal Cert.ReferenceIdeal.Read Cert.ScaleAddTable Idealize.ShloMosaic

variable {F : FTy → Type} [FloatOps F]

/-- Through the three broadcasts an array index reads the table at its second and last coordinates. -/
theorem broadcasts_read_table (i : S16x12x32x32x256.Idx) :
    idx_main_v2 (idx_main_v3 (idx_main_v4 i)) = tableIdx i :=
  funext fun a => Fin.ext (by match a with | ⟨0, _⟩ => rfl | ⟨1, _⟩ => rfl)

/-- The reference's last stage, entry by entry: the product with the constant, plus the table entry. -/
theorem reference_eq (x : (⟨S16x12x32x32x256, .f32⟩ : BufTy).Contents (Elt F)) (pe : (⟨S12x256, .f32⟩ : BufTy).Contents (Elt F)) :
    val_main_v5 (F := F) x pe = scaledPlusTable x pe := by
  funext i
  rw [val_main_v5_apply, val_main_v1_apply, val_main_v0_apply, val_main_cst_apply, val_main_v4_apply,
    val_main_v3_apply, val_main_v2_apply, broadcasts_read_table, scaledPlusTable_apply]

end Cert.ReferenceValue

end
-- ==== Proof.KernelArray.lean ====
/-
  The kernel's output array after its run is `scaledPlusTable` of its two arguments.

  The kernel runs over a grid of 16 × 4 points. At point (b, k) it reads the block of `x` with first coordinate
  `b` and third coordinate in [8k, 8k + 8) — shape [1, 12, 8, 32, 256] — and the whole table, and writes the block
  of the output at the same place. The generated value leg gives what one point leaves in its block, entry by
  entry: the entry of the `x` block at the same position, times 16, plus the table entry at that position's second
  and last coordinates. Three steps remain.
  * A block entry at position y sits in the array at (b, y₁, 8k + y₂, y₃, y₄). The `x` block and the output block
    are at the same place, and the table's one block is the whole table; so what a point writes is its block of
    `scaledPlusTable x pe`, because the second and the last coordinate of the array index are those of the
    position inside the block (the block index is 0 along those axes).
  * Every array index (b, t, h, w, s) lies in the block of the point (b, h / 8): the blocks cover the array.
  * Hence the array ends at `scaledPlusTable x pe`, and the arguments are as they were.
-/
import proofs.«156377_j41188736369188_1_alg».proof.Proof.Gen.KernelIdeal.Value
import proofs.«156377_j41188736369188_1_alg».proof.Proof.ScaleAddTable

noncomputable section

namespace Cert.KernelArray

open Cert.KernelIdeal Cert.KernelIdeal.Gen Cert.ScaleAddTable Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeros5 : (![0, 0, 0, 0, 0] : Fin 5 → Nat) = fun _ => 0 := funext fun a => by fin_cases a <;> rfl
theorem zeros2 : (![0, 0] : Fin 2 → Nat) = fun _ => 0 := funext fun a => by fin_cases a <;> rfl

/-- Inside the `x` block, the position an output position reads is itself (the leading axis has extent 1). -/
theorem same_position (y : S1x12x8x32x256.Idx) : Value.ix2_0 y = y := by
  have hy0 : (y 0).val < 1 := (y 0).isLt
  funext a; apply Fin.ext
  match a with
  | ⟨0, _⟩ => show 0 = (y 0).val; omega
  | ⟨1, _⟩ => rfl
  | ⟨2, _⟩ => rfl
  | ⟨3, _⟩ => rfl
  | ⟨4, _⟩ => rfl

/-- What the body leaves in the output block from an `x` block and the table, entry by entry. -/
theorem block_apply (xb : Vec F S1x12x8x32x256 .f32) (tab : Vec F S12x256 .f32) (y : S1x12x8x32x256.Idx) :
    out0_2 xb tab y = FloatOps.addf (FloatOps.mulf (xb y) (Scalar.ofBits .f32 0x41800000#32)) (tab (Value.ix2_1 y)) := by
  unfold out0_2
  simp only [View.ld_unit_zero (S := S1x12x8x32x256) zeros5, View.ld_unit_zero (S := S12x256) zeros2]
  rw [Value.canon2_eq]
  show FloatOps.addf (FloatOps.mulf (xb (Value.ix2_0 y)) (Scalar.ofBits .f32 0x41800000#32)) (tab (Value.ix2_1 y)) = _
  rw [same_position]

/-- The printed index maps over the 64 grid points: the `x` block sits where the output block does; the table's
    block index is 0; the output's block index is 0 along the second, fourth and last axes. -/
theorem index_maps : ∀ t : Fin cfg0.N,
    win0_0.index t (0 : Fin 5) = win0_2.index t (0 : Fin 5)
    ∧ win0_0.index t (1 : Fin 5) = win0_2.index t (1 : Fin 5)
    ∧ win0_0.index t (2 : Fin 5) = win0_2.index t (2 : Fin 5)
    ∧ win0_0.index t (3 : Fin 5) = win0_2.index t (3 : Fin 5)
    ∧ win0_0.index t (4 : Fin 5) = win0_2.index t (4 : Fin 5)
    ∧ win0_1.index t (0 : Fin 2) = 0
    ∧ win0_1.index t (1 : Fin 2) = 0
    ∧ win0_2.index t (1 : Fin 5) = 0
    ∧ win0_2.index t (3 : Fin 5) = 0
    ∧ win0_2.index t (4 : Fin 5) = 0 :=
  (by decide +kernel : ∀ t : Fin grid0.N, _)

/-- Every pair (b, k) with b < 16 and k < 4 is the output block index of some grid point. -/
theorem index_onto : ∀ (b : Fin 16) (k : Fin 4), ∃ t : Fin cfg0.N, win0_2.index t = ![b.val, 0, k.val, 0, 0] :=
  (by decide +kernel : ∀ (b : Fin 16) (k : Fin 4), ∃ t : Fin grid0.N, win0_2.index t = ![b.val, 0, k.val, 0, 0])

/-- What point `t` writes back is its block of `scaledPlusTable` of the two argument arrays. -/
theorem written_block (c : Dev nD) (t : Fin cfg0.N) :
    (dats m 0 c).flushed 2 t
      = ((cfg0.win 2).blk t).view.read (Elt F) (scaledPlusTable (V m c main_arg0) (V m c main_arg1)) := by
  rw [Value.flushed2]
  obtain ⟨e0, e1, e2, e3, e4, p0, p1, o1, o3, o4⟩ := index_maps t
  funext j
  show out0_2 (iblk m c 0 t) (iblk m c 1 t) j = scaledPlusTable (V m c main_arg0) (V m c main_arg1) (((cfg0.win 2).blk t).view.emb j)
  rw [block_apply, scaledPlusTable_apply]
  show FloatOps.addf (FloatOps.mulf (V m c main_arg0 (((cfg0.win 0).blk t).view.emb j)) (Scalar.ofBits .f32 0x41800000#32))
        (V m c main_arg1 (((cfg0.win 1).blk t).view.emb (Value.ix2_1 j)))
      = FloatOps.addf (FloatOps.mulf (V m c main_arg0 (((cfg0.win 2).blk t).view.emb j)) (Scalar.ofBits .f32 0x41800000#32))
        (V m c main_arg1 (tableIdx (((cfg0.win 2).blk t).view.emb j)))
  have hx : ((cfg0.win 0).blk t).view.emb j = ((cfg0.win 2).blk t).view.emb j := by
    funext a; apply Fin.ext
    match a with
    | ⟨0, _⟩ => show win0_0.index t (0 : Fin 5) * 1 + 1 * (j 0).val = win0_2.index t (0 : Fin 5) * 1 + 1 * (j 0).val; omega
    | ⟨1, _⟩ => show win0_0.index t (1 : Fin 5) * 12 + 1 * (j 1).val = win0_2.index t (1 : Fin 5) * 12 + 1 * (j 1).val; omega
    | ⟨2, _⟩ => show win0_0.index t (2 : Fin 5) * 8 + 1 * (j 2).val = win0_2.index t (2 : Fin 5) * 8 + 1 * (j 2).val; omega
    | ⟨3, _⟩ => show win0_0.index t (3 : Fin 5) * 32 + 1 * (j 3).val = win0_2.index t (3 : Fin 5) * 32 + 1 * (j 3).val; omega
    | ⟨4, _⟩ => show win0_0.index t (4 : Fin 5) * 256 + 1 * (j 4).val = win0_2.index t (4 : Fin 5) * 256 + 1 * (j 4).val; omega
  have htab : ((cfg0.win 1).blk t).view.emb (Value.ix2_1 j) = tableIdx (((cfg0.win 2).blk t).view.emb j) := by
    funext a; apply Fin.ext
    match a with
    | ⟨0, _⟩ => show win0_1.index t (0 : Fin 2) * 12 + 1 * (j 1).val = win0_2.index t (1 : Fin 5) * 12 + 1 * (j 1).val; omega
    | ⟨1, _⟩ => show win0_1.index t (1 : Fin 2) * 256 + 1 * (j 4).val = win0_2.index t (4 : Fin 5) * 256 + 1 * (j 4).val; omega
  rw [hx, htab]

/-- An array index is in point `t`'s output block iff each coordinate is in the block's range on its axis. -/
theorem mem_block (t : Fin cfg0.N) (i : S16x12x32x32x256.Idx) :
    i ∈ ((cfg0.win 2).blk t).view.set ↔ ∀ a : Fin 5, win0_2.index t a * S1x12x8x32x256.size a ≤ (i a).val
      ∧ (i a).val < win0_2.index t a * S1x12x8x32x256.size a + S1x12x8x32x256.size a := by
  show i ∈ ((View.whole main_v0).slice (win0_2.rect t)).set ↔ _
  rw [View.set_slice_whole, Rect.mem_set_unit]
  exact Iff.rfl

/-- The blocks cover the array: the index (b, t, h, w, s) is in the block of the point (b, h / 8). -/
theorem covered (i : S16x12x32x32x256.Idx) :
    ∃ t : Fin cfg0.N, (cfg0.win 2).flush t = true ∧ i ∈ ((cfg0.win 2).blk t).view.set := by
  have hi0 : (i 0).val < 16 := (i 0).isLt
  have hi1 : (i 1).val < 12 := (i 1).isLt
  have hi2 : (i 2).val < 32 := (i 2).isLt
  have hi3 : (i 3).val < 32 := (i 3).isLt
  have hi4 : (i 4).val < 256 := (i 4).isLt
  obtain ⟨t, ht⟩ := index_onto ⟨(i 0).val, hi0⟩ ⟨(i 2).val / 8, by omega⟩
  have q0 : win0_2.index t (0 : Fin 5) = (i 0).val := congrFun ht 0
  have q1 : win0_2.index t (1 : Fin 5) = 0 := congrFun ht 1
  have q2 : win0_2.index t (2 : Fin 5) = (i 2).val / 8 := congrFun ht 2
  have q3 : win0_2.index t (3 : Fin 5) = 0 := congrFun ht 3
  have q4 : win0_2.index t (4 : Fin 5) = 0 := congrFun ht 4
  refine ⟨t, flush0_2 t, ?_⟩
  rw [mem_block]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 12 ≤ (i 1).val ∧ (i 1).val < win0_2.index t (1 : Fin 5) * 12 + 12; omega
  | ⟨2, _⟩ => show win0_2.index t (2 : Fin 5) * 8 ≤ (i 2).val ∧ (i 2).val < win0_2.index t (2 : Fin 5) * 8 + 8; omega
  | ⟨3, _⟩ => show win0_2.index t (3 : Fin 5) * 32 ≤ (i 3).val ∧ (i 3).val < win0_2.index t (3 : Fin 5) * 32 + 32; omega
  | ⟨4, _⟩ => show win0_2.index t (4 : Fin 5) * 256 ≤ (i 4).val ∧ (i 4).val < win0_2.index t (4 : Fin 5) * 256 + 256; omega

/-- The output array after the run, whole. -/
theorem final_array (c : Dev nD) :
    (dats m 0 c).arrAt 2 cfg0.N
      = scaledPlusTable (m ((c : Thread nD τ).loc main_arg0)) (m ((c : Thread nD τ).loc main_arg1)) :=
  (dats m 0 c).arrAt_eq_of_cover 2 _ (fun t _ => written_block m c t) covered

/-- Every weakly fair execution of the kernel program ends with the output array at `scaledPlusTable` of the
    arguments and the arguments unchanged. -/
theorem run : θ_run defs (onTc (τ := τ) (main (F := F))) ⟨m, fun _ => 0, ρ⟩ fun r => ∀ c : Dev nD,
      r.2.mem ((c : Thread nD τ).loc main_v0)
        = scaledPlusTable (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.KernelArray

end
-- ==== Proof.lean ====
/-
  The kernel computes `x · 16 + pe`, the table `pe` over [12, 256] broadcast along the first, third and fourth axes
  of `x` over [16, 12, 32, 32, 256]; the reference computes the same with jnp's broadcasting.

  The kernel walks a 16 × 4 grid, at each point scaling one [1, 12, 8, 32, 256] block of `x` by 16 and adding the
  table reshaped to [12, 1, 1, 256] and stretched over the block. The reference multiplies the whole array by the
  broadcast constant 16 and adds the table after three broadcasts. Read at the extended reals both are, at the index
  (b, t, h, w, s), the number x[b, t, h, w, s] · 16 + pe[t, s] — `ScaleAddTable.scaledPlusTable`: the same product and
  the same sum of the same operands, so no law of arithmetic is used and the inputs' finiteness is never opened.
  * Kernel side (`KernelArray.run`): what a grid point writes back is its block of that function, the blocks cover the
    array, so the array ends at it.
  * Reference side (`ReferenceValue.reference_eq`): the three broadcasts read the table at the index's second and last
    coordinates.
  The three frames are the generated ones (the reference's is its run with the result dropped); the idealization
  rewrote nothing, so `preserves` has nothing to show.
-/
import proofs.«156377_j41188736369188_1_alg».proof.Defs
import proofs.«156377_j41188736369188_1_alg».proof.Proof.Gen.Kernel
import proofs.«156377_j41188736369188_1_alg».proof.Proof.Gen.Kernel.Skeleton
import proofs.«156377_j41188736369188_1_alg».proof.Proof.Gen.Kernel.Launch
import proofs.«156377_j41188736369188_1_alg».proof.Proof.Gen.Kernel.Points
import proofs.«156377_j41188736369188_1_alg».proof.Proof.Gen.Kernel.Frame
import proofs.«156377_j41188736369188_1_alg».proof.Proof.Gen.KernelIdeal
import proofs.«156377_j41188736369188_1_alg».proof.Proof.Gen.KernelIdeal.Skeleton
import proofs.«156377_j41188736369188_1_alg».proof.Proof.Gen.KernelIdeal.Launch
import proofs.«156377_j41188736369188_1_alg».proof.Proof.Gen.KernelIdeal.Points
import proofs.«156377_j41188736369188_1_alg».proof.Proof.Gen.KernelIdeal.Frame
import proofs.«156377_j41188736369188_1_alg».proof.Proof.Gen.ReferenceIdeal
import proofs.«156377_j41188736369188_1_alg».proof.Proof.Gen.Pre_finite_inputs
import proofs.«156377_j41188736369188_1_alg».proof.Proof.Gen.KernelIdeal.Value
import proofs.«156377_j41188736369188_1_alg».proof.Proof.Gen.ReferenceIdeal.Run
import proofs.«156377_j41188736369188_1_alg».proof.Proof.Gen.ReferenceIdeal.Read
import proofs.«156377_j41188736369188_1_alg».proof.Proof.ScaleAddTable
import proofs.«156377_j41188736369188_1_alg».proof.Proof.ReferenceValue
import proofs.«156377_j41188736369188_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- From memories that agree on `x` and `pe`, the kernel's output array and the reference's result both end at
    `x · 16 + pe` with the table read at the second and last coordinates. -/
theorem algebraic : Cert.algebraic_KernelIdeal_ReferenceIdeal := by
  intro m ρ m' ρ' _ hagree
  refine ⟨_, Cert.KernelArray.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
